-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x4096 : Shape := ⟨3, ![4096, 2, 4096]⟩
abbrev S4096x4096 : Shape := ⟨2, ![4096, 4096]⟩
abbrev S4096 : Shape := ⟨1, ![4096]⟩
abbrev S_ : Shape := ⟨0, ![]⟩

class Facts : Prop where
  bcast_S_S4096x2x4096 : S_.BroadcastsInDim S4096x2x4096 (![] : Fin 0 → Fin S4096x2x4096.rank)
  reducesTo_S4096x2x4096_S_d0_1_2 : S4096x2x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x2x4096 .f32) (main_arg1 : FVec F S4096x4096 .f32) (main_arg2 : FVec F S4096 .f32) : IVec S_ 1 :=
  let main_v0 : FVec F S4096x2x4096 .f32 := Host.absf main_arg0
  let main_cst : FVec F S_ .f32 := constant S_ .f32 0x7F800000#32
  let main_v1 : FVec F S4096x2x4096 .f32 := broadcastInDim S4096x2x4096 ![] bcast_S_S4096x2x4096 main_cst
  let main_v2 : IVec S4096x2x4096 1 := cmpf .olt main_v0 main_v1
  let main_c : IVec S_ 1 := constantI S_ 1 1#1
  let main_v3 : IVec S_ 1 := (fun x v => Host.reduce IntOp.andi x v reducesTo_S4096x2x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x2x4096 : Shape := ⟨3, ![4096, 2, 4096]⟩
abbrev S4096x4096 : Shape := ⟨2, ![4096, 4096]⟩
abbrev S4096 : Shape := ⟨1, ![4096]⟩
abbrev S8192x4096 : Shape := ⟨2, ![8192, 4096]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 6
  | .vmem => 7
  | .smem => 0
  | _ => 0

abbrev bufTy : (tb : Table) → Fin (tcTables nBuf tb) → BufTy
  | .hbm, ⟨0, _⟩ => ⟨S4096x2x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S8192x4096, .f32⟩
  | .hbm, ⟨5, _⟩ => ⟨S4096x2x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4096x2x4096_S8192x4096 : S4096x2x4096.ShapeCasts S8192x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S8192x4096_S4096x2x4096 : S8192x4096.ShapeCasts S4096x2x4096
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x4096.size a
  hwx0_2 : ∀ i : grid0.Coords, EltTy.bits .f32 = 32 ∨ (Rect.block (s := S8192x4096) S1024x512.size (cc0_transform_2 i) (hinb0_2 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x2x4096 : Shape := ⟨3, ![4096, 2, 4096]⟩
abbrev S4096x4096 : Shape := ⟨2, ![4096, 4096]⟩
abbrev S4096 : Shape := ⟨1, ![4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x2x4096, .f32⟩
  | .hbm, ⟨1, _⟩ => ⟨S4096x4096, .f32⟩
  | .hbm, ⟨2, _⟩ => ⟨S4096, .f32⟩
  | .hbm, ⟨3, _⟩ => ⟨S4096x2x4096, .f32⟩
  | _, _ => ⟨S4096x2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  dot_S4096x2x4096_S4096x4096_S4096x2x4096_2_1_01_0_n_n_wf : DotDims.WF S4096x2x4096 S4096x4096 S4096x2x4096 [2] [1] [0, 1] [0] [] []

variable [Facts₀]

def dot_S4096x2x4096_S4096x4096_S4096x2x4096_2_1_01_0_n_n : DotDims S4096x2x4096 S4096x4096 S4096x2x4096 where
  lhsContracting := [2]
  rhsContracting := [1]
  lhsNonContracting := [0, 1]
  rhsNonContracting := [0]
  lhsBatch := []
  rhsBatch := []
  wf := dot_S4096x2x4096_S4096x4096_S4096x2x4096_2_1_01_0_n_n_wf

class Facts : Prop extends Facts₀ where

variable [Facts]
-- ==== Proof.Pieces.lean ====
import proofs.«133396_j44856638439902_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

/-!
  What the body leaves behind at a grid point, case by case, as values.

  At a point that opens a run over the contracted axis the body stores the zero block into the accumulator, reads it
  back, and stores the update of it; at every other point it stores the update of what the point before left; at a
  point that closes a run it also copies the accumulator it has just stored into the output block. So in every case
  the accumulator ends at the update's value (of the zero block, or of the previous contents), and in the closing case
  the output block holds the same value.
-/

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- An opening point leaves the accumulator at the update of the zero block. -/
theorem sout_A (c : Dev nD) (i : grid0.Coords) (a3 : Memref sig .tc .vmem S1024x1024 .f32) (h3 : a3.IsWhole)
    (a4 : Memref sig .tc .vmem S512x1024 .f32) (h4 : a4.IsWhole) (a5 : Memref sig .tc .vmem S1024x512 .f32) (h5 : a5.IsWhole)
    (a6 : Memref sig .tc .vmem S1024x512 .f32) (h6 : a6.IsWhole) (hc0 : cond0_0 i) (hc1 : ¬cond0_1 i)
    (x0 : Vec F S1024x1024 .f32) (x1 : Vec F S512x1024 .f32) :
    sout0_A_0 c i a3 h3 a4 h4 a5 h5 a6 h6 hc0 hc1 x0 x1 = k0_pay2 x0 x1 k0_pay1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x512) hz]
  simp only [View.readAt_eq_ld, h3.read_unread, h4.read_unread, h6.read_unread, View.ld_unit_zero (S := S1024x1024) hz,
    View.ld_unit_zero (S := S512x1024) hz, View.ld_unit_zero (S := S1024x512) hz, View.readCov_unit_zero (S := S1024x512) _ hz]

/-- A middle point leaves the accumulator at the update of what it found there. -/
theorem sout_B (c : Dev nD) (i : grid0.Coords) (a3 : Memref sig .tc .vmem S1024x1024 .f32) (h3 : a3.IsWhole)
    (a4 : Memref sig .tc .vmem S512x1024 .f32) (h4 : a4.IsWhole) (a5 : Memref sig .tc .vmem S1024x512 .f32) (h5 : a5.IsWhole)
    (a6 : Memref sig .tc .vmem S1024x512 .f32) (h6 : a6.IsWhole) (hc0 : ¬cond0_0 i) (hc1 : ¬cond0_1 i)
    (x0 : Vec F S1024x1024 .f32) (x1 : Vec F S512x1024 .f32) (xs0 : Vec F S1024x512 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz]
  simp only [View.readAt_eq_ld, h3.read_unread, h4.read_unread, h6.read_unread, View.ld_unit_zero (S := S1024x1024) hz,
    View.ld_unit_zero (S := S512x1024) hz, View.ld_unit_zero (S := S1024x512) hz, View.readCov_unit_zero (S := S1024x512) _ hz]

/-- A closing point leaves the accumulator at the update of what it found there, -/
theorem sout_C (c : Dev nD) (i : grid0.Coords) (a3 : Memref sig .tc .vmem S1024x1024 .f32) (h3 : a3.IsWhole)
    (a4 : Memref sig .tc .vmem S512x1024 .f32) (h4 : a4.IsWhole) (a5 : Memref sig .tc .vmem S1024x512 .f32) (h5 : a5.IsWhole)
    (a6 : Memref sig .tc .vmem S1024x512 .f32) (h6 : a6.IsWhole) (hc0 : ¬cond0_0 i) (hc1 : cond0_1 i)
    (x0 : Vec F S1024x1024 .f32) (x1 : Vec F S512x1024 .f32) (xs0 : Vec F S1024x512 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz,
    View.ld_unit_zero (S := S512x1024) hz, View.ld_unit_zero (S := S1024x512) hz, View.readCov_unit_zero (S := S1024x512) _ hz]

/-- and the output block at the same value: the accumulator read back after its store. -/
theorem out_C (c : Dev nD) (i : grid0.Coords) (a3 : Memref sig .tc .vmem S1024x1024 .f32) (h3 : a3.IsWhole)
    (a4 : Memref sig .tc .vmem S512x1024 .f32) (h4 : a4.IsWhole) (a5 : Memref sig .tc .vmem S1024x512 .f32) (h5 : a5.IsWhole)
    (a6 : Memref sig .tc .vmem S1024x512 .f32) (h6 : a6.IsWhole) (hc0 : ¬cond0_0 i) (hc1 : cond0_1 i)
    (x0 : Vec F S1024x1024 .f32) (x1 : Vec F S512x1024 .f32) (xs0 : Vec F S1024x512 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz,
    View.ld_unit_zero (S := S512x1024) hz, View.ld_unit_zero (S := S1024x512) hz, View.readCov_unit_zero (S := S1024x512) _ hz]

end Cert.KernelIdeal.Pieces
end
-- ==== Proof.Payload.lean ====
/-
  The body's two stored values read at one entry, over the extended reals.

  The reset stores the zero block. The update stores, at row `p` and column `q` of the accumulator, the accumulator's
  entry plus the dot product of row `p` of the activations' block and row `q` of the weights' block over the block's
  1024 columns: the change of format to bf16 is the identity at the ideal instance, the matrix unit's product into a
  zero accumulator is the plain sum of products over the one contracted axis, and the casts between equal shapes are
  the identity.
-/
import proofs.«133396_j44856638439902_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

/-- The reset's block is zero at every entry. -/
theorem pay1_apply (j : S1024x512.Idx) : k0_pay1 (F := Ideal) j = 0 := by
  unfold k0_pay1
  rw [shapeCast_self]
  exact Ideal.ofBits_zero_f32

/-- Axis 0 of the left operand's index is the output's row; -/
theorem lhs_0 (i : S1024x512.Idx) (k : dot_S1024x1024_S512x1024_S1024x512_1_1_0_0_n_n.contr.Idx) : (dot_S1024x1024_S512x1024_S1024x512_1_1_0_0_n_n.lhsIdx i k 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
/-- axis 1 of it the contracted coordinate; -/
theorem lhs_1 (i : S1024x512.Idx) (k : dot_S1024x1024_S512x1024_S1024x512_1_1_0_0_n_n.contr.Idx) : (dot_S1024x1024_S512x1024_S1024x512_1_1_0_0_n_n.lhsIdx i k 1).val = (k ⟨0, by decide⟩).val :=
  dot_S1024x1024_S512x1024_S1024x512_1_1_0_0_n_n.lhsIdx_val_of_single rfl i k
/-- axis 0 of the right operand's index is the output's column; -/
theorem rhs_0 (i : S1024x512.Idx) (k : dot_S1024x1024_S512x1024_S1024x512_1_1_0_0_n_n.contr.Idx) : (dot_S1024x1024_S512x1024_S1024x512_1_1_0_0_n_n.rhsIdx i k 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
/-- axis 1 of it the contracted coordinate. -/
theorem rhs_1 (i : S1024x512.Idx) (k : dot_S1024x1024_S512x1024_S1024x512_1_1_0_0_n_n.contr.Idx) : (dot_S1024x1024_S512x1024_S1024x512_1_1_0_0_n_n.rhsIdx i k 1).val = (k ⟨0, by decide⟩).val :=
  dot_S1024x1024_S512x1024_S1024x512_1_1_0_0_n_n.rhsIdx_val_of_single rfl i k

/-- The matrix unit's product of two blocks into the zero accumulator, at `(p, q)`: the dot product of row `p` of the
    left block and row `q` of the right block. -/
theorem matmul_zero_apply (a : FVec Ideal S1024x1024 .bf16) (b : FVec Ideal S512x1024 .bf16) (p : Fin 1024) (q : Fin 512) :
    matmul dot_S1024x1024_S512x1024_S1024x512_1_1_0_0_n_n none a b (constant (F := Ideal) S1024x512 .f32 0x00000000#32) (ix2 p q) = ∑ r : Fin 1024, a (ix2 p r) * b (ix2 q r) := by
  simp only [matmul]
  rw [Ideal.matmul_constant_zero_apply, ← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p q) ((contrEquiv1 dot_S1024x1024_S512x1024_S1024x512_1_1_0_0_n_n 1024 rfl rfl).symm k) = ix2 p k := funext fun a => Fin.ext (by
    match a with
    | ⟨0, _⟩ => exact lhs_0 _ _
    | ⟨1, _⟩ => exact (lhs_1 _ _).trans hk)
  have er : dot_S1024x1024_S512x1024_S1024x512_1_1_0_0_n_n.rhsIdx (ix2 p q) ((contrEquiv1 dot_S1024x1024_S512x1024_S1024x512_1_1_0_0_n_n 1024 rfl rfl).symm k) = ix2 q k := funext fun a => Fin.ext (by
    match a with
    | ⟨0, _⟩ => exact rhs_0 _ _
    | ⟨1, _⟩ => exact (rhs_1 _ _).trans hk)
  rw [el, er]

/-- The update's block at `(p, q)`: the accumulator's entry plus the blocks' dot product. -/
theorem pay2_apply (x : Vec Ideal S1024x1024 .f32) (w : Vec Ideal S512x1024 .f32) (acc : Vec Ideal S1024x512 .f32)
    (p : Fin 1024) (q : Fin 512) :
    k0_pay2 (F := Ideal) x w acc (ix2 p q) = acc (ix2 p q) + ∑ r : Fin 1024, x (ix2 p r) * w (ix2 q r) := by
  unfold k0_pay2
  rw [shapeCast_self, shapeCast_self]
  refine (addf_apply _ _ _).trans ?_
  refine congrArg (acc (ix2 p q) + ·) ?_
  exact matmul_zero_apply _ _ p q

end Cert.KernelIdeal.Payload

end
-- ==== Proof.Spec.lean ====
/-
  The arithmetic of a linear layer computed in column blocks.

  The kernel forms, for a row `a` of the activations `X` and a row `b` of the weights `W`, the dot product
  `∑ s, X a s * W b s` over 4096 columns as four partial dot products over 1024 consecutive columns each, added one
  after the other onto a zero. The reference forms the whole dot product at once. Over the extended reals addition is
  commutative and associative (it is a commutative monoid: `⊥ + ⊤ = ⊥` breaks cancellation, not regrouping), so the two
  are the same number whatever the entries are; no finiteness is used.

  To keep the arithmetic of rows and columns in the naturals, a matrix is extended by zero to every pair of naturals
  (`ext2`), and a partial dot product over the first `n` columns is a sum over `Finset.range n` (`pdot`).
-/
import Idealize.ShloMosaic.Lib.ValueIdx
import Idealize.ShloMosaic.PureOps.Ideal.Laws

noncomputable section

open scoped BigOperators

namespace Cert.LinearSpec

open Idealize.ShloMosaic Idealize.ShloMosaic.ValueIdx

/-- A matrix of `A` rows and `B` columns read at any pair of naturals: its entry inside, zero outside. -/
def ext2 {A B : ℕ} (X : (⟨2, ![A, B]⟩ : Shape).Idx → EReal) (a b : ℕ) : EReal :=
  if h : a < A ∧ b < B then X (ix2 ⟨a, h.1⟩ ⟨b, h.2⟩) else 0

/-- Inside the matrix the extension is the entry. -/
theorem ext2_of_lt {A B : ℕ} (X : (⟨2, ![A, B]⟩ : Shape).Idx → EReal) {a b : ℕ} (ha : a < A) (hb : b < B) :
    ext2 X a b = X (ix2 ⟨a, ha⟩ ⟨b, hb⟩) := dif_pos ⟨ha, hb⟩

/-- The same at the coordinates of two `Fin`s. -/
theorem ext2_fin {A B : ℕ} (X : (⟨2, ![A, B]⟩ : Shape).Idx → EReal) (a : Fin A) (b : Fin B) :
    ext2 X a.val b.val = X (ix2 a b) := ext2_of_lt X a.isLt b.isLt

/-- The partial dot product of row `a` of `X` and row `b` of `W` over the first `n` columns. -/
def pdot (X W : ℕ → ℕ → EReal) (a b n : ℕ) : EReal := ∑ s ∈ Finset.range n, X a s * W b s

/-- Over no column it is zero. -/
theorem pdot_zero (X W : ℕ → ℕ → EReal) (a b : ℕ) : pdot X W a b 0 = 0 := Finset.sum_range_zero _

/-- `m` more columns add the dot product over those columns. -/
theorem pdot_add (X W : ℕ → ℕ → EReal) (a b n m : ℕ) :
    pdot X W a b (n + m) = pdot X W a b n + ∑ r ∈ Finset.range m, X a (n + r) * W b (n + r) :=
  Finset.sum_range_add _ n m

/-- One more block of `m` columns, the blocks counted: after `k + 1` blocks the partial dot product is the one after
    `k` blocks plus block `k`'s, the latter a sum over `Fin m`. -/
theorem pdot_block (X W : ℕ → ℕ → EReal) (a b k m : ℕ) :
    pdot X W a b ((k + 1) * m) = pdot X W a b (k * m) + ∑ r : Fin m, X a (k * m + r.val) * W b (k * m + r.val) := by
  rw [Nat.succ_mul, pdot_add, Finset.sum_range]

/-- The first block alone. -/
theorem pdot_first (X W : ℕ → ℕ → EReal) (a b m : ℕ) :
    pdot X W a b ((0 + 1) * m) = ∑ r : Fin m, X a (0 * m + r.val) * W b (0 * m + r.val) := by
  rw [pdot_block, Nat.zero_mul, pdot_zero, zero_add]

/-- Over all `B` columns of two matrices the partial dot product is the dot product of the two rows. -/
theorem pdot_full {A A' B : ℕ} (X : (⟨2, ![A, B]⟩ : Shape).Idx → EReal) (W : (⟨2, ![A', B]⟩ : Shape).Idx → EReal)
    (a : Fin A) (b : Fin A') :
    pdot (ext2 X) (ext2 W) a.val b.val B = ∑ s : Fin B, X (ix2 a s) * W (ix2 b s) := by
  unfold pdot
  rw [Finset.sum_range]
  exact Finset.sum_congr rfl fun s _ => by rw [ext2_fin, ext2_fin]

/-- THE RESULT of the linear layer on the activations as a matrix of 8192 rows: entry `(a, b)` is the dot product of
    row `a` of the activations and row `b` of the weights. -/
def linear (X : (⟨2, ![8192, 4096]⟩ : Shape).Idx → EReal) (W : (⟨2, ![4096, 4096]⟩ : Shape).Idx → EReal) :
    (⟨2, ![8192, 4096]⟩ : Shape).Idx → EReal :=
  fun j => ∑ s : Fin 4096, X (ix2 (j 0) s) * W (ix2 (j 1) s)

end Cert.LinearSpec

end
-- ==== Proof.Blocks.lean ====
import proofs.«133396_j44856638439902_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic
import proofs.«133396_j44856638439902_1_alg».proof.Proof.Spec
set_option maxRecDepth 16384

noncomputable section

open Idealize.ShloMosaic Idealize.ShloMosaic.TcCoe Idealize.SL.Sem
open Idealize.ShloMosaic.Pipeline (Dat)

/-!
  The blocks the body reads at a grid point, as entries of the two matrices.

  The grid has 8 × 8 × 4 points, the last axis running fastest: point `t` has row-block `t / 32`, column-block
  `t / 4 % 8` and contraction-block `t % 4`. The activations' block at `t` is rows `(t / 32)·1024 …` and columns
  `(t % 4)·1024 …` of the activations as a matrix of 8192 rows; the weights' block is rows `(t / 4 % 8)·512 …` and the
  same columns of the weights; the output block is rows `(t / 32)·1024 …` and columns `(t / 4 % 8)·512 …` of the result.
-/

namespace Cert.KernelIdeal.Blocks

open Cert.KernelIdeal Cert.KernelIdeal.Gen Cert.LinearSpec Idealize.ShloMosaic.ValueIdx

variable (m : (ℓ : Loc nD τ sig) → Buf (Elt Ideal) ℓ)

/-- The activations as the region finds them, a matrix of 8192 rows. -/
abbrev xarr (c : Dev nD) : S8192x4096.Idx → EReal := V m c main_v0
/-- The weights as the region finds them. -/
abbrev warr (c : Dev nD) : S4096x4096.Idx → EReal := V m c main_arg1
/-- The activations' block at point `t`. -/
abbrev xblk (c : Dev nD) (t : Fin cfg0.N) : Vec Ideal S1024x1024 .f32 := iblk m c 0 t
/-- The weights' block at point `t`. -/
abbrev wblk (c : Dev nD) (t : Fin cfg0.N) : Vec Ideal S512x1024 .f32 := iblk m c 1 t

/-- The printed index maps in closed form, decided over the grid. -/
theorem idx_facts : ∀ t : Fin cfg0.N, win0_0.index t (0 : Fin 2) = t.val / 32 ∧ win0_0.index t (1 : Fin 2) = t.val % 4
    ∧ win0_1.index t (0 : Fin 2) = t.val / 4 % 8 ∧ win0_1.index t (1 : Fin 2) = t.val % 4
    ∧ win0_2.index t (0 : Fin 2) = t.val / 32 ∧ win0_2.index t (1 : Fin 2) = t.val / 4 % 8 :=
  (by decide +kernel : ∀ t : Fin grid0.N, _)

/-- An entry of the activations' block is the matrix's entry at the block's offset. -/
theorem xblk_apply (c : Dev nD) (t : Fin cfg0.N) (p r : Fin 1024) :
    xblk m c t (ix2 p r) = ext2 (xarr m c) (t.val / 32 * 1024 + p.val) (t.val % 4 * 1024 + r.val) := by
  obtain ⟨e0, e1, -⟩ := idx_facts t
  have hN : t.val < 256 := lt_of_lt_of_eq t.isLt N_0
  rw [ext2_of_lt _ (by omega) (by omega)]
  show iblk m c 0 t (ix2 p r) = V m c main_v0 _
  unfold iblk
  rw [View.read_apply]
  show V m c main_v0 _ = V m c main_v0 _
  congr 1
  funext a
  apply Fin.ext
  match a with
  | ⟨0, _⟩ => show win0_0.index t (0 : Fin 2) * 1024 + 1 * p.val = t.val / 32 * 1024 + p.val; rw [e0]; omega
  | ⟨1, _⟩ => show win0_0.index t (1 : Fin 2) * 1024 + 1 * r.val = t.val % 4 * 1024 + r.val; rw [e1]; omega

/-- An entry of the weights' block is the matrix's entry at the block's offset. -/
theorem wblk_apply (c : Dev nD) (t : Fin cfg0.N) (q : Fin 512) (r : Fin 1024) :
    wblk m c t (ix2 q r) = ext2 (warr m c) (t.val / 4 % 8 * 512 + q.val) (t.val % 4 * 1024 + r.val) := by
  obtain ⟨-, -, e2, e3, -⟩ := idx_facts t
  have hN : t.val < 256 := lt_of_lt_of_eq t.isLt N_0
  rw [ext2_of_lt _ (by omega) (by omega)]
  show iblk m c 1 t (ix2 q r) = V m c main_arg1 _
  unfold iblk
  rw [View.read_apply]
  show V m c main_arg1 _ = V m c main_arg1 _
  congr 1
  funext a
  apply Fin.ext
  match a with
  | ⟨0, _⟩ => show win0_1.index t (0 : Fin 2) * 512 + 1 * q.val = t.val / 4 % 8 * 512 + q.val; rw [e2]; omega
  | ⟨1, _⟩ => show win0_1.index t (1 : Fin 2) * 1024 + 1 * r.val = t.val % 4 * 1024 + r.val; rw [e3]; omega

end Cert.KernelIdeal.Blocks
end
-- ==== Proof.Acc.lean ====
/-
  The accumulation over the contracted axis.

  After grid point `n` the accumulator holds, at row `p` and column `q`, the partial dot product of row
  `(n / 32)·1024 + p` of the activations and row `(n / 4 % 8)·512 + q` of the weights over the first
  `(n % 4 + 1)·1024` columns: a point that opens a run starts from zero and adds the first block of columns, every other
  point adds its block to what the point before left (same rows, the next 1024 columns). By induction on the point.
  At a point that closes a run all 4096 columns have been added, and the output block the body writes there holds the
  accumulator: the entries of the linear layer's result.
-/
import proofs.«133396_j44856638439902_1_alg».proof.Proof.Pieces
import proofs.«133396_j44856638439902_1_alg».proof.Proof.Payload
import proofs.«133396_j44856638439902_1_alg».proof.Proof.Blocks

set_option maxRecDepth 16384

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.LinearSpec Cert.KernelIdeal.Blocks

variable (m : (ℓ : Loc nD τ sig) → Buf (Elt Ideal) ℓ)

/-- What the accumulator holds at `(p, q)` after point `n`. -/
def partialDot (c : Dev nD) (n : ℕ) (p : Fin 1024) (q : Fin 512) : EReal :=
  pdot (ext2 (xarr m c)) (ext2 (warr m c)) (n / 32 * 1024 + p.val) (n / 4 % 8 * 512 + q.val) ((n % 4 + 1) * 1024)

/-- The dot product of the two blocks' rows at point `t` is the dot product of the matrices' rows over the block's
    columns. -/
theorem block_term (c : Dev nD) (t : Fin cfg0.N) (p : Fin 1024) (q : Fin 512) :
    ∑ r : Fin 1024, xblk m c t (ix2 p r) * wblk m c t (ix2 q r)
      = ∑ r : Fin 1024, ext2 (xarr m c) (t.val / 32 * 1024 + p.val) (t.val % 4 * 1024 + r.val)
          * ext2 (warr m c) (t.val / 4 % 8 * 512 + q.val) (t.val % 4 * 1024 + r.val) :=
  Finset.sum_congr rfl fun r _ => by rw [xblk_apply, wblk_apply]

/-- A point that opens a run: zero plus the first block. -/
theorem step_open (c : Dev nD) (t : Fin cfg0.N) (h0 : t.val % 4 = 0) (p : Fin 1024) (q : Fin 512) :
    (outsAt0 m c t.val t.isLt).2 (ix2 p q) = partialDot m c t.val p q := by
  have h1 : ¬t.val % 4 = 3 := by omega
  rw [outsAt0_A m c t h0 h1]
  dsimp only
  refine (congrFun (Pieces.sout_A (F := Ideal) c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (xblk m c t) (wblk m c t)) (ix2 p q)).trans ?_
  rw [Payload.pay2_apply, Payload.pay1_apply, zero_add, block_term]
  unfold partialDot
  rw [h0]
  exact (pdot_first _ _ _ _ 1024).symm

/-- Any other point: what the point before left plus this point's block. -/
theorem step_next (c : Dev nD) (t : Fin cfg0.N) (h0 : ¬t.val % 4 = 0)
    (ih : ∀ (p : Fin 1024) (q : Fin 512), (outsAt0 m c (t.val - 1) (Nat.lt_of_le_of_lt (Nat.sub_le _ _) t.isLt)).2 (ix2 p q) = partialDot m c (t.val - 1) p q)
    (p : Fin 1024) (q : Fin 512) :
    (outsAt0 m c t.val t.isLt).2 (ix2 p q) = partialDot m c t.val p q := by
  have e1 : (t.val - 1) / 32 = t.val / 32 := by omega
  have e2 : (t.val - 1) / 4 % 8 = t.val / 4 % 8 := by omega
  have e3 : (t.val - 1) % 4 + 1 = t.val % 4 := by omega
  have hstep : ∀ v : Vec Ideal S1024x512 .f32,
      v = k0_pay2 (F := Ideal) (xblk m c t) (wblk m c t) (outsAt0 m c (t.val - 1) (Nat.lt_of_le_of_lt (Nat.sub_le _ _) t.isLt)).2 →
      v (ix2 p q) = partialDot m c t.val p q := by
    intro v hv
    rw [hv, Payload.pay2_apply, ih, block_term]
    unfold partialDot
    rw [e1, e2, e3]
    exact (pdot_block _ _ _ _ (t.val % 4) 1024).symm
  by_cases h1 : t.val % 4 = 3
  · rw [outsAt0_C m c t h0 h1]
    dsimp only
    exact hstep _ (Pieces.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (wblk m c t) _)
  · rw [outsAt0_B m c t h0 h1]
    dsimp only
    exact hstep _ (Pieces.sout_B (F := Ideal) c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (xblk m c t) (wblk m c t) _)

/-- THE ACCUMULATOR after every point: the partial dot products. -/
theorem acc_eq (c : Dev nD) : ∀ (n : ℕ) (hn : n < cfg0.N) (p : Fin 1024) (q : Fin 512),
    (outsAt0 m c n hn).2 (ix2 p q) = partialDot m c n p q
  | 0, hn, p, q => step_open m c ⟨0, hn⟩ rfl p q
  | n + 1, hn, p, q => by
    by_cases h0 : (n + 1) % 4 = 0
    · exact step_open m c ⟨n + 1, hn⟩ h0 p q
    · exact step_next m c ⟨n + 1, hn⟩ h0 (fun p q => acc_eq c n (Nat.lt_of_succ_lt hn) p q) p q

/-- At a point that closes a run the output block is the accumulator. -/
theorem out_eq_acc (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (Pieces.out_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (wblk m c t) _).trans
    (Pieces.sout_C (F := Ideal) c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (xblk m c t) (wblk m c t) _).symm

/-- So the block written back at a closing point holds the linear layer's result at the block's rows and columns. -/
theorem out_apply (c : Dev nD) (t : Fin cfg0.N) (h1 : t.val % 4 = 3) (p : Fin 1024) (q : Fin 512)
    (ha : t.val / 32 * 1024 + p.val < 8192) (hb : t.val / 4 % 8 * 512 + q.val < 4096) :
    (outsAt0 m c t.val t.isLt).1 (ix2 p q) = linear (xarr m c) (warr m c) (ix2 ⟨_, ha⟩ ⟨_, hb⟩) := by
  rw [out_eq_acc m c t h1, acc_eq]
  unfold partialDot
  rw [h1]
  exact pdot_full (xarr m c) (warr m c) ⟨_, ha⟩ ⟨_, hb⟩

end Cert.KernelIdeal.Acc

end
-- ==== Proof.Final.lean ====
/-
  The kernel's run, read: its result is the linear layer's result, unflattened.

  The output window is written back exactly at the points that close a run over the contracted axis, and the block
  written there holds the result's entries at the block's rows and columns (the accumulation). Those 64 blocks tile
  the [8192, 4096] result — the point that covers entry `(a, b)` is row-block `a / 1024`, column-block `b / 512`, last
  contraction step — so after the region the result array holds the matrix of dot products of the flattened
  activations and the weights; the host's reshape after the region unflattens its rows.
-/
import proofs.«133396_j44856638439902_1_alg».proof.Proof.Acc
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.LinearSpec Cert.KernelIdeal.Blocks Cert.KernelIdeal.Acc

variable (m : (ℓ : Loc nD τ sig) → Buf (Elt Ideal) ℓ) (ρ : Dev nD → PrngReg)

/-- The result array's contents after the region: the matrix of dot products. -/
abbrev result (c : Dev nD) : Buf (Elt Ideal) ((c : Thread nD τ).loc main_v1) := linear (xarr m c) (warr m c)

/-- WHAT A CLOSING POINT WRITES BACK is its block of the result. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  have hN : t.val < 256 := lt_of_lt_of_eq t.isLt N_0
  obtain ⟨-, -, -, -, e4, e5⟩ := idx_facts t
  show (cfg0.win 2).cut (grid0.coords t) ((dats m 0 c).after 2 t) = _
  rw [after0_2]
  have key : ∀ j : S1024x512.Idx,
      (outsAt0 m c t.val t.isLt).1 j = linear (xarr m c) (warr m c) (((cfg0.win 2).blk t).view.emb j) := by
    intro j
    obtain ⟨p, q, rfl⟩ : ∃ (p : Fin 1024) (q : Fin 512), j = ix2 p q := ⟨j 0, j 1, eq_ix2 j⟩
    have hp : p.val < 1024 := p.isLt
    have hq : q.val < 512 := q.isLt
    rw [out_apply m c t h3 p q (by omega) (by omega)]
    congr 1
    funext a
    apply Fin.ext
    match a with
    | ⟨0, _⟩ => show t.val / 32 * 1024 + p.val = win0_2.index t (0 : Fin 2) * 1024 + 1 * p.val; rw [e4]; omega
    | ⟨1, _⟩ => show t.val / 4 % 8 * 512 + q.val = win0_2.index t (1 : Fin 2) * 512 + 1 * q.val; rw [e5]; omega
  funext j
  exact key j

/-- An entry of the result array is in point `t`'s block iff each coordinate is in the block's range on its axis. -/
theorem mem_blk (t : Fin cfg0.N) (i : S8192x4096.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v1).slice (win0_2.rect t)).set ↔ _
  rw [View.set_slice_whole, Rect.mem_set_unit]
  exact Iff.rfl

/-- Every entry of the result array is in the block some closing point writes back. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 256 := N_0
  refine ⟨⟨(i 0).val / 1024 * 32 + (i 1).val / 512 * 4 + 3, by rw [hN]; omega⟩, ?_, ?_⟩
  · exact (flush0_2 _).mpr (by dsimp only; omega)
  · rw [mem_blk]
    obtain ⟨-, -, -, -, e4, e5⟩ := idx_facts ⟨(i 0).val / 1024 * 32 + (i 1).val / 512 * 4 + 3, by rw [hN]; omega⟩
    dsimp only at e4 e5
    intro a
    match a with
    | ⟨0, _⟩ =>
      show win0_2.index _ (0 : Fin 2) * 1024 ≤ (i 0).val ∧ (i 0).val < win0_2.index _ (0 : Fin 2) * 1024 + 1024
      rw [e4]; omega
    | ⟨1, _⟩ =>
      show win0_2.index _ (1 : Fin 2) * 512 ≤ (i 1).val ∧ (i 1).val < win0_2.index _ (1 : Fin 2) * 512 + 512
      rw [e5]; omega

/-- THE RESULT ARRAY after the region. -/
theorem final (c : Dev nD) : (dats m 0 c).arrAt 2 cfg0.N = result m c :=
  (dats m 0 c).arrAt_eq_of_cover 2 (result m c) (flushed_eq m c) cover

/-- The activations as the region finds them are the argument, flattened. -/
theorem xarr_eq (c : Dev nD) :
    xarr m c = shapeCast S8192x4096 (m ((c : Thread nD τ).loc main_arg0)) shapeCasts_S4096x2x4096_S8192x4096 := by
  show StableHlo.after hostOps0 (fun b => m (c, b)) (Proc.devRef .tc main_v0) = _
  after_results
  rfl

/-- The weights as the region finds them are the argument. -/
theorem warr_eq (c : Dev nD) : warr m c = m ((c : Thread nD τ).loc main_arg1) := V_main_arg1 m c

/-- The host's reshape after the region unflattens the result array. -/
theorem tail_eq (c : Dev nD) :
    Pipeline.afterTail₀ cfgs (dats m) 0 (V0 m) [hostOps1] c main_v2
      = shapeCast S4096x2x4096 (result m c) shapeCasts_S8192x4096_S4096x2x4096 := by
  unfold Pipeline.afterTail₀
  show StableHlo.after hostOps1 _ (Proc.devRef .tc main_v2) = _
  after_results
  exact congrArg (fun v => shapeCast S4096x2x4096 v shapeCasts_S8192x4096_S4096x2x4096)
    ((Pipeline.withArrays_arr spec0 launch0.win.arr_inj c _ _ 2).trans (final m c))

/-- The program's result as a function of the arguments: the linear layer's result on the flattened activations,
    unflattened. -/
abbrev out (c : Dev nD) : Buf (Elt Ideal) ((c.tc : Thread nD τ).loc main_v2) :=
  shapeCast S4096x2x4096 (linear (shapeCast S8192x4096 (m ((c.tc : Thread nD τ).loc main_arg0)) shapeCasts_S4096x2x4096_S8192x4096)
    (m ((c.tc : Thread nD τ).loc main_arg1))) shapeCasts_S8192x4096_S4096x2x4096

/-- THE RUN, READ: every weakly fair execution terminates with the result at that function of the arguments and the
    arguments unchanged. -/
theorem run : θ_run defs (onTc (τ := τ) (main (F := Ideal))) ⟨m, fun _ => 0, ρ⟩ fun r => ∀ c : Dev nD,
      r.2.mem ((c.tc : Thread nD τ).loc main_v2) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans
        ((tail_eq m c).trans (by
          show shapeCast S4096x2x4096 (linear (xarr m c) (warr m c)) shapeCasts_S8192x4096_S4096x2x4096 = _
          rw [xarr_eq, warr_eq])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.RefValue.lean ====
/-
  The reference's result is the linear layer's result, re-laid.

  The reference contracts the last axis of the activations `[4096, 2, 4096]` with the last axis of the weights: entry
  `(s, b, o)` is `∑ k, x (s, b, k) * w (o, k)`. The kernel flattens the activations' two leading axes into 8192 rows
  (row `2·s + b`, the same row-major position), forms the matrix of dot products, and unflattens the rows again. Read at
  `(s, b, o)` both are the same sum.
-/
import proofs.«133396_j44856638439902_1_alg».proof.Defs
import proofs.«133396_j44856638439902_1_alg».proof.Proof.Gen.ReferenceIdeal.Read
import proofs.«133396_j44856638439902_1_alg».proof.Proof.Spec
import Idealize.ShloMosaic.Lib.Pipeline.Value

noncomputable section

open scoped BigOperators
open Idealize.ShloMosaic Idealize.ShloMosaic.ValueIdx

namespace Cert.ReferenceIdeal.RefValue

open Cert.ReferenceIdeal Cert.LinearSpec

/-- The flattened activations at row `2·s + b` are the activations at `(s, b)`. -/
theorem flat_apply (x : S4096x2x4096.Idx → EReal) (h1 : S4096x2x4096.ShapeCasts ⟨2, ![8192, 4096]⟩)
    (s : Fin 4096) (b : Fin 2) (k : Fin 4096) (hr : s.val * 2 + b.val < 8192) :
    shapeCast ⟨2, ![8192, 4096]⟩ x h1 (ix2 ⟨s.val * 2 + b.val, hr⟩ k) = x (ix3 s b k) := by
  refine shapeCast_apply x h1 _ (ix3 s b k) ?_
  rw [Shape.rowMajor_val_two, Shape.rowMajor_val_three]
  rfl

/-- The kernel's result, unflattened, read at `(s, b, o)`. -/
theorem unflat_linear_apply (x : S4096x2x4096.Idx → EReal) (w : S4096x4096.Idx → EReal)
    (h1 : S4096x2x4096.ShapeCasts ⟨2, ![8192, 4096]⟩) (h2 : (⟨2, ![8192, 4096]⟩ : Shape).ShapeCasts S4096x2x4096)
    (s : Fin 4096) (b : Fin 2) (o : Fin 4096) :
    shapeCast S4096x2x4096 (linear (shapeCast ⟨2, ![8192, 4096]⟩ x h1) w) h2 (ix3 s b o)
      = ∑ k : Fin 4096, x (ix3 s b k) * w (ix2 o k) := by
  have hr : s.val * 2 + b.val < 8192 := by have := s.isLt; have := b.isLt; omega
  rw [shapeCast_apply _ h2 (ix3 s b o) (ix2 ⟨s.val * 2 + b.val, hr⟩ o) (by
    rw [Shape.rowMajor_val_two, Shape.rowMajor_val_three]; rfl)]
  show ∑ k : Fin 4096, shapeCast ⟨2, ![8192, 4096]⟩ x h1 (ix2 ⟨s.val * 2 + b.val, hr⟩ k) * w (ix2 o k) = _
  exact Finset.sum_congr rfl fun k _ => by rw [flat_apply]

/-- THE REFERENCE is the kernel's function of the arguments. -/
theorem ref_eq (x : S4096x2x4096.Idx → EReal) (w : S4096x4096.Idx → EReal)
    (h1 : S4096x2x4096.ShapeCasts ⟨2, ![8192, 4096]⟩) (h2 : (⟨2, ![8192, 4096]⟩ : Shape).ShapeCasts S4096x2x4096) :
    Read.val_main_v0 (F := Ideal) x w = shapeCast S4096x2x4096 (linear (shapeCast ⟨2, ![8192, 4096]⟩ x h1) w) h2 := by
  funext i
  obtain ⟨s, b, o, rfl⟩ : ∃ (s : Fin 4096) (b : Fin 2) (o : Fin 4096), i = ix3 s b o := ⟨i 0, i 1, i 2, eq_ix3 i⟩
  rw [Read.val_main_v0_apply, unflat_linear_apply]
  refine Finset.sum_congr rfl fun k _ => ?_
  have el : Read.lidx_main_v0 (ix3 s b o) k = ix3 s b k := funext fun a => by
    match a with
    | ⟨0, _⟩ => rfl
    | ⟨1, _⟩ => rfl
    | ⟨2, _⟩ => rfl
  have er : Read.ridx_main_v0 (ix3 s b o) k = ix2 o k := funext fun a => by
    match a with
    | ⟨0, _⟩ => rfl
    | ⟨1, _⟩ => rfl
  rw [el, er]

end Cert.ReferenceIdeal.RefValue

end
-- ==== Proof.lean ====
/-
  A linear layer without its bias, `out[s, b, o] = ∑ i, x[s, b, i] · w[o, i]`, computed by a kernel in blocks against
  the reference's one contraction.

  The kernel flattens the activations to 8192 rows, walks an 8 × 8 × 4 grid (row-block, column-block, contraction
  step), and at each point adds to an accumulator the product of a 1024 × 1024 block of activations and a 512 × 1024
  block of weights (fed to the matrix unit in bf16, which is the identity over the extended reals); the accumulator is
  reset at the first contraction step and copied to the output block at the last. So each entry of the result is its
  dot product over 4096 columns, formed as four partial dot products over 1024 columns added onto zero, and the
  reference forms the same dot product at once: equal over the extended reals because addition there is commutative
  and associative (no finiteness is needed). The bias is returned as it came by both.

  The kernel's frames are the generated ones; the reference's frame is its generated run with the result dropped; the
  idealization rewrote nothing.
-/
import proofs.«133396_j44856638439902_1_alg».proof.Defs
import proofs.«133396_j44856638439902_1_alg».proof.Proof.Gen.Kernel
import proofs.«133396_j44856638439902_1_alg».proof.Proof.Gen.Kernel.Frame
import proofs.«133396_j44856638439902_1_alg».proof.Proof.Gen.KernelIdeal
import proofs.«133396_j44856638439902_1_alg».proof.Proof.Gen.KernelIdeal.Frame
import proofs.«133396_j44856638439902_1_alg».proof.Proof.Gen.ReferenceIdeal
import proofs.«133396_j44856638439902_1_alg».proof.Proof.Gen.ReferenceIdeal.Run
import proofs.«133396_j44856638439902_1_alg».proof.Proof.Gen.ReferenceIdeal.Read
import proofs.«133396_j44856638439902_1_alg».proof.Proof.Gen.Pre_finite_inputs
import proofs.«133396_j44856638439902_1_alg».proof.Proof.Final
import proofs.«133396_j44856638439902_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => ⟨(h c).2.2.1, (h c).2.2.2.1, (h c).2.2.2.2⟩)
    (Cert.ReferenceIdeal.Value.run (F := Ideal) m ρ)

theorem preserves : Cert.preserves_Kernel_KernelIdeal := trivial

/-- Both programs end with the result at the linear layer's result of the arguments and the bias as it came. -/
theorem algebraic : Cert.algebraic_KernelIdeal_ReferenceIdeal := by
  intro m ρ m' ρ' _ hagree
  refine ⟨fun c => Cert.KernelIdeal.Final.out m c, fun c => m ((c.tc : Thread Cert.KernelIdeal.nD Cert.KernelIdeal.τ).loc Cert.KernelIdeal.main_arg2), ?_, ?_⟩
  · exact (θ_run Cert.KernelIdeal.defs _ _).mono (fun _ h c => ⟨(h c).1, (h c).2.2.2, (h c).2.1, (h c).2.2.1, (h c).2.2.2⟩)
      (Cert.KernelIdeal.Final.run m ρ)
  · refine (θ_run Cert.ReferenceIdeal.defs _ _).mono (fun _ h c => ⟨(h c).1.trans ?_, (h c).2.1.trans (hagree c).2.2, (h c).2.2.1, (h c).2.2.2.1, (h c).2.2.2.2⟩)
      (Cert.ReferenceIdeal.Value.run (F := Ideal) m' ρ')
    rw [(hagree c).1, (hagree c).2.1, Cert.ReferenceIdeal.Read.val_main_v0_eq]
    exact Cert.ReferenceIdeal.RefValue.ref_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
